-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S5000x128 : Shape := ⟨2, ![5000, 128]⟩
abbrev S1x128 : Shape := ⟨2, ![1, 128]⟩

abbrev nBuf : Space → Nat
  | .hbm => 38
  | .vmem => 9
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x128, .f32⟩
  | .hbm, ⟨34, _⟩ => ⟨S100000x128, .f32⟩
  | .hbm, ⟨35, _⟩ => ⟨S128x128, .f32⟩
  | .hbm, ⟨36, _⟩ => ⟨S128x128, .f32⟩
  | .hbm, ⟨37, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 46
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x128, .f32⟩
  | .hbm, ⟨34, _⟩ => ⟨S100000x128, .f32⟩
  | .hbm, ⟨35, _⟩ => ⟨S128x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x128, .f32⟩
  | .hbm, ⟨40, _⟩ => ⟨S128x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_call1_cst : Ref sig .tc := ⟨.hbm, 43, rfl⟩
abbrev main_call1_v0 : Ref sig .tc := ⟨.hbm, 44, rfl⟩
abbrev main_v30 : Ref sig .tc := ⟨.hbm, 45, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Layer.lean ====
/-
  One GraphSAGE layer as a function on extended reals.

  For node features `h` and aggregated neighbour features `neigh` (both 100000 × 128), the two weight matrices
  already transposed (`wsT`, `wnT`, 128 × 128, rows indexed by the input feature) and the bias `b`, the output entry
  at node `r` and output feature `c` is

      max ( (Σ_k h[r,k] · wsT[k,c]  +  b[c])  +  Σ_k neigh[r,k] · wnT[k,c] ,  0 ).

  The two programs this certificate compares add the three summands in different orders; on the extended reals
  addition is commutative and associative (with the convention +∞ + −∞ = −∞ it is still a commutative monoid), so
  the orders agree without any finiteness assumption: `add_swap_last`.
-/
import Idealize.ShloMosaic.PureOps.Ideal
import Idealize.ShloMosaic.Lib.ValueIdx

noncomputable section

open scoped BigOperators

namespace Cert.Sage

open Idealize.ShloMosaic Idealize.ShloMosaic.ValueIdx

/-- The shape of the node-feature arrays. -/
abbrev Nodes : Shape := ⟨2, ![100000, 128]⟩
/-- The shape of a weight matrix. -/
abbrev Weights : Shape := ⟨2, ![128, 128]⟩
/-- The shape of the bias. -/
abbrev Bias : Shape := ⟨1, ![128]⟩

/-- The layer's output at node `r`, feature `c`. -/
def entry (h neigh : Nodes.Idx → EReal) (wsT wnT : Weights.Idx → EReal) (b : Bias.Idx → EReal)
    (r : Fin 100000) (c : Fin 128) : EReal :=
  max (((∑ k : Fin 128, h (ix2 r k) * wsT (ix2 k c)) + b (ix1 c)) + ∑ k : Fin 128, neigh (ix2 r k) * wnT (ix2 k c)) 0

/-- The layer's whole output array. -/
def layer (h neigh : Nodes.Idx → EReal) (wsT wnT : Weights.Idx → EReal) (b : Bias.Idx → EReal) : Nodes.Idx → EReal :=
  fun i => entry h neigh wsT wnT b (i 0) (i 1)

theorem layer_ix2 (h neigh : Nodes.Idx → EReal) (wsT wnT : Weights.Idx → EReal) (b : Bias.Idx → EReal)
    (r : Fin 100000) (c : Fin 128) : layer h neigh wsT wnT b (ix2 r c) = entry h neigh wsT wnT b r c := rfl

/-- Adding the bias last or second gives the same extended real: `(s + n) + b = (s + b) + n`. -/
theorem add_swap_last (s n b : EReal) : (s + n) + b = (s + b) + n := add_right_comm s n b

end Cert.Sage

end
-- ==== Proof.BodyEntry.lean ====
/-
  The kernel body's stored value, read at one entry of a 5000-row block.

  The body loads a block `x0` of node features, the matching block `x1` of aggregated neighbour features, the two
  transposed weight matrices `w0`, `w1` and the bias `b`, and stores

      max ( (x0 · w0 + x1 · w1) + b , 0 )

  where `·` is a matrix product accumulated into zero and `b` is added to every row. On the extended reals a change
  of float format is the identity and a matrix product into a zero accumulator is the plain sum over the contracted
  axis, so at row `p`, column `q` the stored value is
  `max ((Σ_k x0[p,k]·w0[k,q] + Σ_k x1[p,k]·w1[k,q]) + b[q]) 0`.
-/
import proofs.«132012_j52664888984237_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Body

open Cert.KernelIdeal Cert.KernelIdeal.Gen Idealize.ShloMosaic Idealize.ShloMosaic.ValueIdx

/-- The block product's dimension numbers: rows × contraction times contraction × columns. -/
abbrev blockDot : DotDims S5000x128 S128x128 S5000x128 := dot_S5000x128_S128x128_S5000x128_1_0_0_1_n_n

/-! The operand indices of the block product at output index `i` and contraction index `q`: the left operand is read
    at (row of `i`, `q`), the right operand at (`q`, column of `i`). -/

theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block product into the zero accumulator, at row `p` and column `q`, is the sum over the 128 contracted
    positions of the row's entry times the column's entry. -/
theorem product_entry (x : FVec Ideal S5000x128 .bf16) (w : FVec Ideal S128x128 .bf16) (p : Fin 5000) (q : Fin 128) :
    matmul dot_S5000x128_S128x128_S5000x128_1_0_0_1_n_n none x w (constant (F := Ideal) S5000x128 .f32 0x00000000#32) (ix2 p q)
      = ∑ k : Fin 128, x (ix2 p k) * w (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-- The bias, viewed as one row and repeated over the 5000 rows, reads at (p, q) the bias at q. -/
theorem bias_entry (b : Vec Ideal S128 .f32) (p : Fin 5000) (q : Fin 128) :
    broadcastTo S5000x128 (shapeCast S1x128 b shapeCasts_S128_S1x128) broadcasts_S1x128_S5000x128 (ix2 p q) = b (ix1 q) := by
  rw [broadcastTo_1b_ab_apply, shapeCast_a_1a_apply]

/-- The stored value at row `p`, column `q` of the block. -/
theorem stored_entry (x0 x1 : Vec Ideal S5000x128 .f32) (w0 w1 : Vec Ideal S128x128 .f32) (b : Vec Ideal S128 .f32)
    (p : Fin 5000) (q : Fin 128) :
    k0_pay1 (F := Ideal) x0 x1 w0 w1 b (ix2 p q)
      = max (((∑ k : Fin 128, x0 (ix2 p k) * w0 (ix2 k q)) + ∑ k : Fin 128, x1 (ix2 p k) * w1 (ix2 k q)) + b (ix1 q)) 0 := by
  unfold k0_pay1
  rw [maximumf_apply, addf_apply, addf_apply, product_entry, product_entry, bias_entry, broadcast_apply]
  simp only [shapeCast_self, truncf_apply, Ideal.ofBits_def, Ideal.ofBits_zero_f32]

end Cert.KernelIdeal.Body

end
-- ==== Proof.KernelArray.lean ====
/-
  The kernel's result array, as one function of the arrays its pipeline starts from.

  The grid has 20 points. At point `t` the pipeline hands the body rows `5000·t … 5000·t + 4999` of the node features
  and of the aggregated neighbour features, and (at every point) the whole of the two transposed weight matrices and
  of the bias; the body's stored block goes back to the same rows of the result. The stored value at row `p`,
  column `q` of the block was read in the module on the body; with the block reads substituted it is the layer
  function at node `5000·t + p`, feature `q`, once the bias, which the kernel adds last, is moved in front of the
  neighbour term. The 20 blocks of 5000 rows tile the 100000 rows, so the result array is the layer function
  everywhere.
-/
import proofs.«132012_j52664888984237_1_alg».proof.Proof.Gen.KernelIdeal.Value
import proofs.«132012_j52664888984237_1_alg».proof.Proof.BodyEntry
import proofs.«132012_j52664888984237_1_alg».proof.Proof.Layer
import Idealize.ShloMosaic.Lib.Pipeline.Value

set_option maxRecDepth 16384

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin2 : (![0, 0] : Fin 2 → Nat) = fun _ => 0 := funext fun a => by fin_cases a <;> rfl
theorem origin1 : (![0] : Fin 1 → Nat) = fun _ => 0 := funext fun a => by fin_cases a <;> rfl

/-- The block indices, decided over the 20 points: the two row-blocked inputs and the output sit at block `t` of
    their first axis, everything else at block 0. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! The five arrays the pipeline stages (windows 0, 1, 2, 4 and 3), by their literal types. -/

abbrev feat (c : Dev nD) : Vec Ideal S100000x128 .f32 := V m c (Pipeline.arrRef spec0 0)
abbrev neigh (c : Dev nD) : Vec Ideal S100000x128 .f32 := V m c (Pipeline.arrRef spec0 1)
abbrev wself (c : Dev nD) : Vec Ideal S128x128 .f32 := V m c (Pipeline.arrRef spec0 2)
abbrev wneigh (c : Dev nD) : Vec Ideal S128x128 .f32 := V m c (Pipeline.arrRef spec0 4)
abbrev bias (c : Dev nD) : Vec Ideal S128 .f32 := V m c (Pipeline.arrRef spec0 3)

/-- What the result array should hold: the layer function of those five arrays. -/
def target (c : Dev nD) : Vec Ideal S100000x128 .f32 :=
  Cert.Sage.layer (feat m c) (neigh m c) (wself m c) (wneigh m c) (bias m c)

/-! ## Where a block's entry sits in its array -/

/-- Row `p` of a node-feature block at point `t` is row `5000·t + p` of the array. -/
theorem feat_pos (t : Fin cfg0.N) (p : Fin 5000) (k : Fin 128) (hr : 5000 * t.val + p.val < 100000) :
    ((cfg0.win 0).blk t).view.emb (ix2 p k) = (ix2 ⟨5000 * t.val + p.val, hr⟩ k : S100000x128.Idx) := by
  obtain ⟨e0, e1, -⟩ := index_facts t
  refine funext fun a => Fin.ext ?_
  match a with
  | ⟨0, _⟩ => show win0_0.index t (0 : Fin 2) * 5000 + 1 * p.val = 5000 * t.val + p.val; rw [e0]; omega
  | ⟨1, _⟩ => show win0_0.index t (1 : Fin 2) * 128 + 1 * k.val = k.val; rw [e1]; omega

/-- The same for a neighbour-feature block. -/
theorem neigh_pos (t : Fin cfg0.N) (p : Fin 5000) (k : Fin 128) (hr : 5000 * t.val + p.val < 100000) :
    ((cfg0.win 1).blk t).view.emb (ix2 p k) = (ix2 ⟨5000 * t.val + p.val, hr⟩ k : S100000x128.Idx) := by
  obtain ⟨-, -, e0, e1, -⟩ := index_facts t
  refine funext fun a => Fin.ext ?_
  match a with
  | ⟨0, _⟩ => show win0_1.index t (0 : Fin 2) * 5000 + 1 * p.val = 5000 * t.val + p.val; rw [e0]; omega
  | ⟨1, _⟩ => show win0_1.index t (1 : Fin 2) * 128 + 1 * k.val = k.val; rw [e1]; omega

/-- A weight block is the whole matrix at every point: entry (k, q) sits at (k, q). -/
theorem wself_pos (t : Fin cfg0.N) (k q : Fin 128) :
    ((cfg0.win 2).blk t).view.emb (ix2 k q) = (ix2 k q : S128x128.Idx) := by
  obtain ⟨-, -, -, -, e0, e1, -⟩ := index_facts t
  refine funext fun a => Fin.ext ?_
  match a with
  | ⟨0, _⟩ => show win0_2.index t (0 : Fin 2) * 128 + 1 * k.val = k.val; rw [e0]; omega
  | ⟨1, _⟩ => show win0_2.index t (1 : Fin 2) * 128 + 1 * q.val = q.val; rw [e1]; omega

theorem wneigh_pos (t : Fin cfg0.N) (k q : Fin 128) :
    ((cfg0.win 4).blk t).view.emb (ix2 k q) = (ix2 k q : S128x128.Idx) := by
  obtain ⟨-, -, -, -, -, -, -, e0, e1, -⟩ := index_facts t
  refine funext fun a => Fin.ext ?_
  match a with
  | ⟨0, _⟩ => show win0_4.index t (0 : Fin 2) * 128 + 1 * k.val = k.val; rw [e0]; omega
  | ⟨1, _⟩ => show win0_4.index t (1 : Fin 2) * 128 + 1 * q.val = q.val; rw [e1]; omega

/-- The bias block is the whole bias. -/
theorem bias_pos (t : Fin cfg0.N) (q : Fin 128) :
    ((cfg0.win 3).blk t).view.emb (ix1 q) = (ix1 q : S128.Idx) := by
  obtain ⟨-, -, -, -, -, -, e0, -⟩ := index_facts t
  refine funext fun a => Fin.ext ?_
  match a with
  | ⟨0, _⟩ => show win0_3.index t (0 : Fin 1) * 128 + 1 * q.val = q.val; rw [e0]; omega

/-- Row `p`, column `q` of the output block at point `t` sits at row `5000·t + p`, column `q` of the result array. -/
theorem out_pos (t : Fin cfg0.N) (p : Fin 5000) (q : Fin 128) (hr : 5000 * t.val + p.val < 100000) :
    ((cfg0.win 5).blk t).view.emb (ix2 p q) = (ix2 ⟨5000 * t.val + p.val, hr⟩ q : S100000x128.Idx) := by
  obtain ⟨-, -, -, -, -, -, -, -, -, e0, e1⟩ := index_facts t
  refine funext fun a => Fin.ext ?_
  match a with
  | ⟨0, _⟩ => show win0_5.index t (0 : Fin 2) * 5000 + 1 * p.val = 5000 * t.val + p.val; rw [e0]; omega
  | ⟨1, _⟩ => show win0_5.index t (1 : Fin 2) * 128 + 1 * q.val = q.val; rw [e1]; omega

/-! ## Each input block, read through its window -/

/-! The five input blocks at point `t`, by their literal types. -/

abbrev featBlk (c : Dev nD) (t : Fin cfg0.N) : Vec Ideal S5000x128 .f32 := iblk m c 0 t
abbrev neighBlk (c : Dev nD) (t : Fin cfg0.N) : Vec Ideal S5000x128 .f32 := iblk m c 1 t
abbrev wselfBlk (c : Dev nD) (t : Fin cfg0.N) : Vec Ideal S128x128 .f32 := iblk m c 2 t
abbrev biasBlk (c : Dev nD) (t : Fin cfg0.N) : Vec Ideal S128 .f32 := iblk m c 3 t
abbrev wneighBlk (c : Dev nD) (t : Fin cfg0.N) : Vec Ideal S128x128 .f32 := iblk m c 4 t

theorem feat_block (c : Dev nD) (t : Fin cfg0.N) (p : Fin 5000) (k : Fin 128) (hr : 5000 * t.val + p.val < 100000) :
    featBlk m c t (ix2 p k) = feat m c (ix2 ⟨5000 * t.val + p.val, hr⟩ k) := by
  unfold featBlk iblk
  rw [View.read_apply, feat_pos t p k hr]
  exact cast_eq _ _

theorem neigh_block (c : Dev nD) (t : Fin cfg0.N) (p : Fin 5000) (k : Fin 128) (hr : 5000 * t.val + p.val < 100000) :
    neighBlk m c t (ix2 p k) = neigh m c (ix2 ⟨5000 * t.val + p.val, hr⟩ k) := by
  unfold neighBlk iblk
  rw [View.read_apply, neigh_pos t p k hr]
  exact cast_eq _ _

theorem wself_block (c : Dev nD) (t : Fin cfg0.N) (k q : Fin 128) :
    wselfBlk m c t (ix2 k q) = wself m c (ix2 k q) := by
  unfold wselfBlk iblk
  rw [View.read_apply, wself_pos t k q]
  exact cast_eq _ _

theorem wneigh_block (c : Dev nD) (t : Fin cfg0.N) (k q : Fin 128) :
    wneighBlk m c t (ix2 k q) = wneigh m c (ix2 k q) := by
  unfold wneighBlk iblk
  rw [View.read_apply, wneigh_pos t k q]
  exact cast_eq _ _

theorem bias_block (c : Dev nD) (t : Fin cfg0.N) (q : Fin 128) :
    biasBlk m c t (ix1 q) = bias m c (ix1 q) := by
  unfold biasBlk iblk
  rw [View.read_apply, bias_pos t q]
  exact cast_eq _ _

/-! ## What each point writes back -/

/-- A block `X` whose row `p` is row `5000·t + p` of an array `G`, written back at point `t`, is block `t` of `G`. -/
theorem written_is_block (t : Fin cfg0.N) (X : Vec Ideal S5000x128 .f32) (G : Vec Ideal S100000x128 .f32)
    (h : ∀ (p : Fin 5000) (q : Fin 128) (hr : 5000 * t.val + p.val < 100000), X (ix2 p q) = G (ix2 ⟨5000 * t.val + p.val, hr⟩ q)) :
    (cfg0.win 5).cut (grid0.coords t) X = ((cfg0.win 5).blk t).view.read (Elt Ideal) G := by
  have hN : cfg0.N = 20 := N_0
  have ht : t.val < 20 := hN ▸ t.isLt
  funext j
  obtain ⟨p, q, rfl⟩ : ∃ (p : Fin 5000) (q : Fin 128), j = ix2 p q := ⟨j 0, j 1, eq_ix2 j⟩
  have hr : 5000 * t.val + p.val < 100000 := by have := p.isLt; omega
  show X (ix2 p q) = G (((cfg0.win 5).blk t).view.emb (ix2 p q))
  rw [out_pos t p q hr]
  exact h p q hr

/-- The stored value at row `p`, column `q` of point `t`'s block is the layer function at node `5000·t + p`,
    feature `q`: the block reads substituted, and the bias moved in front of the neighbour term. -/
theorem stored_is_layer (c : Dev nD) (t : Fin cfg0.N) (p : Fin 5000) (q : Fin 128) (hr : 5000 * t.val + p.val < 100000) :
    k0_pay1 (F := Ideal) (featBlk m c t) (neighBlk m c t) (wselfBlk m c t) (wneighBlk m c t) (biasBlk m c t) (ix2 p q)
      = target m c (ix2 ⟨5000 * t.val + p.val, hr⟩ q) := by
  refine (Cert.KernelIdeal.Body.stored_entry (featBlk m c t) (neighBlk m c t) (wselfBlk m c t) (wneighBlk m c t) (biasBlk m c t) p q).trans ?_
  unfold target
  rw [Cert.Sage.layer_ix2]
  unfold Cert.Sage.entry
  rw [Cert.Sage.add_swap_last, bias_block m c t q]
  have hs : ∑ k : Fin 128, featBlk m c t (ix2 p k) * wselfBlk m c t (ix2 k q)
      = ∑ k : Fin 128, feat m c (ix2 ⟨5000 * t.val + p.val, hr⟩ k) * wself m c (ix2 k q) :=
    Finset.sum_congr rfl fun k _ => by rw [feat_block m c t p k hr, wself_block m c t k q]
  have hn : ∑ k : Fin 128, neighBlk m c t (ix2 p k) * wneighBlk m c t (ix2 k q)
      = ∑ k : Fin 128, neigh m c (ix2 ⟨5000 * t.val + p.val, hr⟩ k) * wneigh m c (ix2 k q) :=
    Finset.sum_congr rfl fun k _ => by rw [neigh_block m c t p k hr, wneigh_block m c t k q]
  rw [hs, hn]

/-- Point `t` writes back block `t` of the layer function. -/
theorem flushed_eq (c : Dev nD) (t : Fin cfg0.N) :
    (dats m 0 c).flushed 5 t = ((cfg0.win 5).blk t).view.read (Elt Ideal) (target m c) := by
  rw [Cert.KernelIdeal.Value.flushed5]
  unfold out0_5
  rw [View.canon_unit_zero origin2]
  simp only [View.ld_unit_zero (S := S5000x128) origin2, View.ld_unit_zero (S := S128x128) origin2, View.ld_unit_zero (S := S128) origin1]
  exact written_is_block t _ (target m c) fun p q hr => stored_is_layer m c t p q hr

/-! ## The blocks tile the result -/

/-- An index of the result array is in point `t`'s block iff each coordinate is in the block's range on its axis. -/
theorem mem_block (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v24).slice (win0_5.rect t)).set ↔ _
  rw [View.set_slice_whole, Rect.mem_set_unit]
  exact Iff.rfl

/-- Every row lies in the block of the point `row / 5000`. -/
theorem covered (i : S100000x128.Idx) :
    ∃ t : Fin cfg0.N, (cfg0.win 5).flush t = true ∧ i ∈ ((cfg0.win 5).blk t).view.set := by
  have hN : cfg0.N = 20 := N_0
  have hi0 : (i 0).val < 100000 := (i 0).isLt
  have hi1 : (i 1).val < 128 := (i 1).isLt
  have hlt : (i 0).val / 5000 < cfg0.N := by rw [hN]; omega
  obtain ⟨-, -, -, -, -, -, -, -, -, e0, e1⟩ := index_facts ⟨(i 0).val / 5000, hlt⟩
  refine ⟨⟨(i 0).val / 5000, hlt⟩, flush0_5 _, ?_⟩
  rw [mem_block]
  intro a
  match a with
  | ⟨0, _⟩ =>
    show win0_5.index ⟨(i 0).val / 5000, hlt⟩ (0 : Fin 2) * 5000 ≤ (i 0).val ∧ (i 0).val < win0_5.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win0_5.index ⟨(i 0).val / 5000, hlt⟩ (1 : Fin 2) * 128 ≤ (i 1).val ∧ (i 1).val < win0_5.index ⟨(i 0).val / 5000, hlt⟩ (1 : Fin 2) * 128 + 128
    rw [e1]
    omega

/-- The result array after the run is the layer function. -/
theorem final (c : Dev nD) : (dats m 0 c).arrAt 5 cfg0.N = target m c :=
  (dats m 0 c).arrAt_eq_of_cover 5 (target m c) (fun t _ => flushed_eq m c t) covered

/-- The kernel program's run: it terminates with the result array at the layer function and the inputs unchanged. -/
theorem run : θ_run defs (onTc (τ := τ) (main (F := Ideal))) ⟨m, fun _ => 0, ρ⟩ fun r => ∀ c : Dev nD,
      r.2.mem ((c : Thread nD τ).loc main_v24) = target m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.KernelIdeal.Whole

end
-- ==== Proof.EntryArrays.lean ====
/-
  The arrays the kernel's pipeline finds when it starts.

  Before the one kernel launch the program computes, on the host, the aggregated neighbour features (a gather of
  source rows, a scatter-add by destination, a degree count clamped below by one, a division) and the two transposed
  weight matrices. The reference program performs the same host operations in the same order on the same inputs, so
  the three arrays the pipeline stages — the neighbour features and the two transposes — are, as functions of the
  inputs, literally the reference's intermediate values `%21`, `%22` and `%27`. Nothing here opens the gather
  or the scatter: both sides are the same composition, compared as compositions.
-/
import proofs.«132012_j52664888984237_1_alg».proof.Proof.Gen.KernelIdeal.Frame
import proofs.«132012_j52664888984237_1_alg».proof.Proof.Gen.ReferenceIdeal.Read
import Idealize.ShloMosaic.Lib.StableHlo.Run

set_option maxRecDepth 16384

noncomputable section

namespace Cert.KernelIdeal.Entry

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

/-- The neighbour-feature array the pipeline stages is the reference's mean aggregation of the same inputs. -/
theorem neigh_eq (c : Dev nD) :
    V m c main_v21 = Cert.ReferenceIdeal.Read.val_main_v21 (F := F) (m ((c : Thread nD τ).loc main_arg0)) (m ((c : Thread nD τ).loc main_arg1)) := by
  dsimp only [V]
  simp only [hostOps0, hostOps0_1, hostOps0_2, List.flatten_cons, List.flatten_nil, List.append_nil, List.cons_append, List.nil_append]
  after_results_simp
  simp only [TRef.ofBuf, TRef.toBuf, cast_eq]
  rfl

/-- The first weight array the pipeline stages is the transpose of `W_self`, the reference's `%22`. -/
theorem wself_eq (c : Dev nD) :
    V m c main_v22 = Cert.ReferenceIdeal.Read.val_main_v22 (F := F) (m ((c : Thread nD τ).loc main_arg2)) := by
  dsimp only [V]
  simp only [hostOps0, hostOps0_1, hostOps0_2, List.flatten_cons, List.flatten_nil, List.append_nil, List.cons_append, List.nil_append]
  after_results_simp
  rfl

/-- The second weight array the pipeline stages is the transpose of `W_neigh`, the reference's `%27`. -/
theorem wneigh_eq (c : Dev nD) :
    V m c main_v23 = Cert.ReferenceIdeal.Read.val_main_v27 (F := F) (m ((c : Thread nD τ).loc main_arg4)) := by
  dsimp only [V]
  simp only [hostOps0, hostOps0_1, hostOps0_2, List.flatten_cons, List.flatten_nil, List.append_nil, List.cons_append, List.nil_append]
  after_results_simp
  rfl

/-! The same five facts with each array named as the pipeline names it: the array of window 0, 1, 2, 4 and 3. -/

theorem feat_staged (c : Dev nD) :
    V m c (Pipeline.arrRef spec0 0) = m ((c : Thread nD τ).loc main_arg0) := V_main_arg0 m c

theorem bias_staged (c : Dev nD) :
    V m c (Pipeline.arrRef spec0 3) = m ((c : Thread nD τ).loc main_arg3) := V_main_arg3 m c

theorem neigh_staged (c : Dev nD) :
    V m c (Pipeline.arrRef spec0 1) = Cert.ReferenceIdeal.Read.val_main_v21 (F := F) (m ((c : Thread nD τ).loc main_arg0)) (m ((c : Thread nD τ).loc main_arg1)) :=
  neigh_eq m c

theorem wself_staged (c : Dev nD) :
    V m c (Pipeline.arrRef spec0 2) = Cert.ReferenceIdeal.Read.val_main_v22 (F := F) (m ((c : Thread nD τ).loc main_arg2)) :=
  wself_eq m c

theorem wneigh_staged (c : Dev nD) :
    V m c (Pipeline.arrRef spec0 4) = Cert.ReferenceIdeal.Read.val_main_v27 (F := F) (m ((c : Thread nD τ).loc main_arg4)) :=
  wneigh_eq m c

end Cert.KernelIdeal.Entry

end
-- ==== Proof.RefLayer.lean ====
/-
  The reference program's result is the layer function of its inputs.

  The reference computes, on the host, `h · W_selfᵀ`, adds the bias repeated over the rows, adds `neigh · W_neighᵀ`
  and takes the maximum with zero. Read at node `r` and feature `c` each matrix product is the sum over the 128
  contracted positions, the repeated bias is `b[c]`, and the constant is the real number zero: exactly
  `Cert.Sage.entry` of the node features, the aggregated neighbour features (the program's value `%21`, kept as
  one unopened array here), the two transposed weight matrices (`%22`, `%27`) and the bias.
-/
import proofs.«132012_j52664888984237_1_alg».proof.Proof.Gen.ReferenceIdeal.Read
import proofs.«132012_j52664888984237_1_alg».proof.Proof.Layer

noncomputable section

open scoped BigOperators

namespace Cert.ReferenceIdeal.RefValue

open Cert.ReferenceIdeal Cert.ReferenceIdeal.Gen Cert.ReferenceIdeal.Read Idealize.ShloMosaic Idealize.ShloMosaic.ValueIdx

/-- Left operand of either product at output (r, c), position k: (r, k). -/
theorem left_pos (r : Fin 100000) (c k : Fin 128) : lidx_main_v23 (ix2 r c) k = ix2 r k :=
  funext fun a => Fin.ext (by match a with | ⟨0, _⟩ => rfl | ⟨1, _⟩ => rfl)
/-- Right operand at output (r, c), position k: (k, c). -/
theorem right_pos (r : Fin 100000) (c k : Fin 128) : ridx_main_v23 (ix2 r c) k = ix2 k c :=
  funext fun a => Fin.ext (by match a with | ⟨0, _⟩ => rfl | ⟨1, _⟩ => rfl)
theorem left_pos' (r : Fin 100000) (c k : Fin 128) : lidx_main_v28 (ix2 r c) k = ix2 r k :=
  funext fun a => Fin.ext (by match a with | ⟨0, _⟩ => rfl | ⟨1, _⟩ => rfl)
theorem right_pos' (r : Fin 100000) (c k : Fin 128) : ridx_main_v28 (ix2 r c) k = ix2 k c :=
  funext fun a => Fin.ext (by match a with | ⟨0, _⟩ => rfl | ⟨1, _⟩ => rfl)
/-- The repeated bias at (r, c) reads the bias at c. -/
theorem bias_pos (r : Fin 100000) (c : Fin 128) : idx_main_v24 (idx_main_v25 (ix2 r c)) = ix1 c :=
  funext fun a => Fin.ext (by match a with | ⟨0, _⟩ => rfl)

/-- The reference's result array is the layer function of the node features, the aggregated neighbour features,
    the transposed weights and the bias. -/
theorem result_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v30 (F := Ideal) x0 x1 x2 x3 x4
      = Cert.Sage.layer x0 (val_main_v21 (F := Ideal) x0 x1) (val_main_v22 (F := Ideal) x2) (val_main_v27 (F := Ideal) x4) x3 := by
  funext i
  obtain ⟨r, c, rfl⟩ : ∃ (r : Fin 100000) (c : Fin 128), i = ix2 r c := ⟨i 0, i 1, eq_ix2 i⟩
  rw [val_main_v30_apply, val_main_v29_apply, val_main_v26_apply, val_main_v23_apply, val_main_v28_apply,
    val_main_v25_apply, val_main_v24_apply, val_main_call1_v0_apply, val_main_call1_cst_apply]
  simp only [left_pos, right_pos, left_pos', right_pos', bias_pos, Ideal.maximumf_def, Ideal.addf_def, Ideal.ofBits_def,
    Ideal.ofBits_zero_f32, Cert.Sage.layer_ix2, Cert.Sage.entry]

end Cert.ReferenceIdeal.RefValue

end
-- ==== Proof.lean ====
/- The certificate of the GraphSAGE layer kernel against its jnp reference, over the extended reals.

   Both programs first compute, on the host and by the same operations, the mean of each node's incoming neighbour
   features. The reference then forms `relu ((h · W_selfᵀ + b) + neigh · W_neighᵀ)` on the host; the kernel forms
   `max ((h · W_selfᵀ + neigh · W_neighᵀ) + b, 0)` block by block, 5000 rows at a time, with the two weight matrices
   transposed on the host beforehand. On the extended reals a change of float format is the identity, a matrix product
   accumulated into zero is the plain sum over the contracted axis, and addition is commutative and associative, so
   both results are the one layer function (`Cert.Sage.layer`) of the same five arrays; no finiteness of the inputs
   is used.

   The three frames are the generated ones (the reference's is its generated run with the result dropped); the
   idealization rewrote nothing, so `preserves` is trivial. -/
import proofs.«132012_j52664888984237_1_alg».proof.Defs
import proofs.«132012_j52664888984237_1_alg».proof.Proof.Gen.Kernel
import proofs.«132012_j52664888984237_1_alg».proof.Proof.Gen.Kernel.Skeleton
import proofs.«132012_j52664888984237_1_alg».proof.Proof.Gen.Kernel.Launch
import proofs.«132012_j52664888984237_1_alg».proof.Proof.Gen.Kernel.Points
import proofs.«132012_j52664888984237_1_alg».proof.Proof.Gen.Kernel.Frame
import proofs.«132012_j52664888984237_1_alg».proof.Proof.Gen.KernelIdeal
import proofs.«132012_j52664888984237_1_alg».proof.Proof.Gen.KernelIdeal.Skeleton
import proofs.«132012_j52664888984237_1_alg».proof.Proof.Gen.KernelIdeal.Launch
import proofs.«132012_j52664888984237_1_alg».proof.Proof.Gen.KernelIdeal.Points
import proofs.«132012_j52664888984237_1_alg».proof.Proof.Gen.KernelIdeal.Frame
import proofs.«132012_j52664888984237_1_alg».proof.Proof.Gen.ReferenceIdeal
import proofs.«132012_j52664888984237_1_alg».proof.Proof.Gen.Pre_finite_inputs
import proofs.«132012_j52664888984237_1_alg».proof.Proof.Gen.KernelIdeal.Value
import proofs.«132012_j52664888984237_1_alg».proof.Proof.Gen.ReferenceIdeal.Run
import proofs.«132012_j52664888984237_1_alg».proof.Proof.Gen.ReferenceIdeal.Read
import proofs.«132012_j52664888984237_1_alg».proof.Proof.Layer
import proofs.«132012_j52664888984237_1_alg».proof.Proof.BodyEntry
import proofs.«132012_j52664888984237_1_alg».proof.Proof.KernelArray
import proofs.«132012_j52664888984237_1_alg».proof.Proof.EntryArrays
import proofs.«132012_j52664888984237_1_alg».proof.Proof.RefLayer
import Idealize.ShloMosaic.Adequacy
import Idealize.ShloMosaic.Init

noncomputable section

namespace Cert.Proof

open Idealize.ShloMosaic Idealize.ShloMosaic.TcCoe Idealize.SL.Sem

/-- The word-level kernel program runs and leaves its inputs unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- And the idealized reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the five inputs both programs end with the layer function of the node features, the
    mean-aggregated neighbour features, the two transposed weight matrices and the bias. The kernel's pipeline finds
    exactly the reference's intermediate arrays (the same host operations on the same inputs), and the inputs
    themselves are untouched by the host prefix. -/
theorem algebraic : Cert.algebraic_KernelIdeal_ReferenceIdeal := by
  intro m ρ m' ρ' _ hagree
  refine ⟨fun c => Cert.KernelIdeal.Whole.target m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4⟩ := hagree c
  refine (Cert.ReferenceIdeal.Read.val_main_v30_eq _ _ _ _ _).trans ?_
  refine (Cert.ReferenceIdeal.RefValue.result_eq _ _ _ _ _).trans ?_
  rw [a0, a1, a2, a3, a4]
  dsimp only [Cert.KernelIdeal.Whole.target, Cert.KernelIdeal.Whole.feat, Cert.KernelIdeal.Whole.neigh, Cert.KernelIdeal.Whole.wself,
    Cert.KernelIdeal.Whole.wneigh, Cert.KernelIdeal.Whole.bias]
  rw [Cert.KernelIdeal.Entry.feat_staged m c, Cert.KernelIdeal.Entry.neigh_staged m c, Cert.KernelIdeal.Entry.wself_staged m c,
    Cert.KernelIdeal.Entry.wneigh_staged m c, Cert.KernelIdeal.Entry.bias_staged m c]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
